-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x3 : Shape := ⟨2, ![128, 3]⟩
abbrev S3 : Shape := ⟨1, ![3]⟩
abbrev S100000x3 : Shape := ⟨2, ![100000, 3]⟩
abbrev S2x1600000 : Shape := ⟨2, ![2, 1600000]⟩
abbrev S50000 : Shape := ⟨1, ![50000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S100000x3 : S_.BroadcastsInDim S100000x3 (![] : Fin 0 → Fin S100000x3.rank)
  reducesTo_S100000x3_S_d0_1 : S100000x3.ReducesTo [0, 1] S_

variable [Facts]

def fn_part1 {F : FTy → Type} [FloatOps F] (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  main_v18

def fn {F : FTy → Type} [FloatOps F] (main_arg0 : FVec F S100000x128 .f32) (main_arg1 : FVec F S128x3 .f32) (main_arg2 : FVec F S3 .f32) (main_arg3 : FVec F S100000x3 .f32) (main_arg4 : IVec S2x1600000 32) (main_arg5 : IVec S50000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_v13 main_v16
-- ==== Kernel.lean ====
abbrev S100000x128 : Shape := ⟨2, ![100000, 128]⟩
abbrev S128x3 : Shape := ⟨2, ![128, 3]⟩
abbrev S3 : Shape := ⟨1, ![3]⟩
abbrev S100000x3 : Shape := ⟨2, ![100000, 3]⟩
abbrev S2x1600000 : Shape := ⟨2, ![2, 1600000]⟩
abbrev S50000 : Shape := ⟨1, ![50000]⟩
abbrev S100000x1 : Shape := ⟨2, ![100000, 1]⟩
abbrev S4000x128 : Shape := ⟨2, ![4000, 128]⟩
abbrev S4000x3 : Shape := ⟨2, ![4000, 3]⟩
abbrev S4000x1 : Shape := ⟨2, ![4000, 1]⟩
abbrev S1x3 : Shape := ⟨2, ![1, 3]⟩
abbrev S4000 : Shape := ⟨1, ![4000]⟩
abbrev S100000 : Shape := ⟨1, ![100000]⟩
abbrev S_ : Shape := ⟨0, ![]⟩
abbrev S50000x1 : Shape := ⟨2, ![50000, 1]⟩
abbrev S1x1600000 : Shape := ⟨2, ![1, 1600000]⟩
abbrev S1600000 : Shape := ⟨1, ![1600000]⟩
abbrev S1600000x1 : Shape := ⟨2, ![1600000, 1]⟩
abbrev S50001 : Shape := ⟨1, ![50001]⟩

abbrev nBuf : Space → Nat
  | .hbm => 67
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x3, .f32⟩
  | .hbm, ⟨2, _⟩ => ⟨S3, .f32⟩
  | .hbm, ⟨3, _⟩ => ⟨S100000x3, .f32⟩
  | .hbm, ⟨4, _⟩ => ⟨S2x1600000, .i32⟩
  | .hbm, ⟨5, _⟩ => ⟨S50000, .i32⟩
  | .hbm, ⟨6, _⟩ => ⟨S100000x1, .f32⟩
  | .hbm, ⟨7, _⟩ => ⟨S100000, .f32⟩
  | .hbm, ⟨8, _⟩ => ⟨S_, .i32⟩
  | .hbm, ⟨9, _⟩ => ⟨S100000, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S_, .f32⟩
  | .hbm, ⟨49, _⟩ => ⟨S50001, .f32⟩
  | .hbm, ⟨50, _⟩ => ⟨S1600000x1, .i32⟩
  | .hbm, ⟨51, _⟩ => ⟨S50001, .f32⟩
  | .hbm, ⟨52, _⟩ => ⟨S50000, .f32⟩
  | .hbm, ⟨53, _⟩ => ⟨S1600000, .f32⟩
  | .hbm, ⟨54, _⟩ => ⟨S_, .f32⟩
  | .hbm, ⟨55, _⟩ => ⟨S50001, .f32⟩
  | .hbm, ⟨56, _⟩ => ⟨S1600000x1, .i32⟩
  | .hbm, ⟨57, _⟩ => ⟨S50001, .f32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S128x3, .f32⟩
  | .local _ .vmem, ⟨3, _⟩ => ⟨S3, .f32⟩
  | .local _ .vmem, ⟨4, _⟩ => ⟨S4000x3, .f32⟩
  | .local _ .vmem, ⟨5, _⟩ => ⟨S4000x3, .f32⟩
  | .local _ .vmem, ⟨6, _⟩ => ⟨S4000x1, .f32⟩
  | .local _ .vmem, ⟨7, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_call0_v0 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  reduces_S4000x3_S4000 : S4000x3.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  bcast_S_S100000 : S_.BroadcastsInDim S100000 (![] : Fin 0 → Fin S100000.rank)
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50001 : S_.BroadcastsInDim S50001 (![] : Fin 0 → Fin S50001.rank)
  slices_S50001_S50000_0 : S50001.Slices ![0] S50000
  reducesTo_S50000_S_d0 : S50000.ReducesTo [0] S_
  h_S_ : 0 < S_.numel
  dot_S4000x128_S128x3_S4000x3_1_0_0_1_n_n_wf : DotDims.WF S4000x128 S128x3 S4000x3 [1] [0] [0] [1] [] []
  scatter_S100000_S50000x1_S50000_n_0_0_1_wf : ScatterDims.WF S100000 S50000x1 S50000 [] [0] [0] 1
  gather_S100000_S1600000x1_S1600000_n_0_n_n_0_1_1_wf : GatherDims.WF S100000 S1600000x1 S1600000 [] [0] [] [0] [] 1 ![1]
  scatter_S50001_S1600000x1_S1600000_n_0_0_1_wf : ScatterDims.WF S50001 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S100000x3.size a
  hwx0_3 : ∀ i : grid0.Coords, EltTy.bits .f32 = 32 ∨ (Rect.block (s := S100000x3) S4000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)

variable [Facts₀]

def dot_S4000x128_S128x3_S4000x3_1_0_0_1_n_n : DotDims S4000x128 S128x3 S4000x3 where
  lhsContracting := [1]
  rhsContracting := [0]
  lhsNonContracting := [0]
  rhsNonContracting := [1]
  lhsBatch := []
  rhsBatch := []
  wf := dot_S4000x128_S128x3_S4000x3_1_0_0_1_n_n_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S50001_S1600000x1_S1600000_n_0_0_1 : ScatterDims S50001 S1600000x1 S1600000 where
  updateWindowDims := []
  insertedWindowDims := [0]
  scatterDimsToOperandDims := [0]
  indexVectorDim := 1
  wf := scatter_S50001_S1600000x1_S1600000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x3 : Shape := ⟨2, ![128, 3]⟩
abbrev S3 : Shape := ⟨1, ![3]⟩
abbrev S100000x3 : Shape := ⟨2, ![100000, 3]⟩
abbrev S2x1600000 : Shape := ⟨2, ![2, 1600000]⟩
abbrev S50000 : Shape := ⟨1, ![50000]⟩
abbrev S_ : Shape := ⟨0, ![]⟩
abbrev S100000 : Shape := ⟨1, ![100000]⟩
abbrev S50000x1 : Shape := ⟨2, ![50000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1600000x3 : Shape := ⟨2, ![1600000, 3]⟩
abbrev S1x3 : Shape := ⟨2, ![1, 3]⟩
abbrev S50001 : Shape := ⟨1, ![50001]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x3, .f32⟩
  | .hbm, ⟨2, _⟩ => ⟨S3, .f32⟩
  | .hbm, ⟨3, _⟩ => ⟨S100000x3, .f32⟩
  | .hbm, ⟨4, _⟩ => ⟨S2x1600000, .i32⟩
  | .hbm, ⟨5, _⟩ => ⟨S50000, .i32⟩
  | .hbm, ⟨6, _⟩ => ⟨S_, .i32⟩
  | .hbm, ⟨7, _⟩ => ⟨S100000, .i32⟩
  | .hbm, ⟨8, _⟩ => ⟨S50000, .i32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S100000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x3, .f32⟩
  | .hbm, ⟨44, _⟩ => ⟨S1x3, .f32⟩
  | .hbm, ⟨45, _⟩ => ⟨S1600000x3, .f32⟩
  | .hbm, ⟨46, _⟩ => ⟨S1600000x3, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x3, .f32⟩
  | .hbm, ⟨56, _⟩ => ⟨S1600000x3, .f32⟩
  | .hbm, ⟨57, _⟩ => ⟨S1600000x3, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S1600000, .f32⟩
  | .hbm, ⟨62, _⟩ => ⟨S1600000, .f32⟩
  | .hbm, ⟨63, _⟩ => ⟨S_, .f32⟩
  | .hbm, ⟨64, _⟩ => ⟨S1600000, .f32⟩
  | .hbm, ⟨65, _⟩ => ⟨S1600000, .f32⟩
  | .hbm, ⟨66, _⟩ => ⟨S_, .f32⟩
  | .hbm, ⟨67, _⟩ => ⟨S50001, .f32⟩
  | .hbm, ⟨68, _⟩ => ⟨S1600000x1, .i32⟩
  | .hbm, ⟨69, _⟩ => ⟨S50001, .f32⟩
  | .hbm, ⟨70, _⟩ => ⟨S50000, .f32⟩
  | .hbm, ⟨71, _⟩ => ⟨S1600000, .f32⟩
  | .hbm, ⟨72, _⟩ => ⟨S_, .f32⟩
  | .hbm, ⟨73, _⟩ => ⟨S50001, .f32⟩
  | .hbm, ⟨74, _⟩ => ⟨S1600000x1, .i32⟩
  | .hbm, ⟨75, _⟩ => ⟨S50001, .f32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_call0_v0 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S3_S1x3_1 : S3.BroadcastsInDim S1x3 (![1] : Fin 1 → Fin S1x3.rank)
  bcast_S1x3_S1600000x3_0_1 : S1x3.BroadcastsInDim S1600000x3 (![0, 1] : Fin 2 → Fin S1600000x3.rank)
  reducesTo_S1600000x3_S1600000_d1 : S1600000x3.ReducesTo [1] S1600000
  h_S_ : 0 < S_.numel
  bcast_S_S50001 : S_.BroadcastsInDim S50001 (![] : Fin 0 → Fin S50001.rank)
  slices_S50001_S50000_0 : S50001.Slices ![0] S50000
  reducesTo_S50000_S_d0 : S50000.ReducesTo [0] S_
  scatter_S100000_S50000x1_S50000_n_0_0_1_wf : ScatterDims.WF S100000 S50000x1 S50000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  dot_S1600000x128_S128x3_S1600000x3_1_0_0_1_n_n_wf : DotDims.WF S1600000x128 S128x3 S1600000x3 [1] [0] [0] [1] [] []
  gather_S100000x3_S1600000x1_S1600000x3_1_0_n_n_0_1_13_wf : GatherDims.WF S100000x3 S1600000x1 S1600000x3 [1] [0] [] [0] [] 1 ![1, 3]
  scatter_S50001_S1600000x1_S1600000_n_0_0_1_wf : ScatterDims.WF S50001 S1600000x1 S1600000 [] [0] [0] 1

variable [Facts₀]

def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x3_S1600000x3_1_0_0_1_n_n : DotDims S1600000x128 S128x3 S1600000x3 where
  lhsContracting := [1]
  rhsContracting := [0]
  lhsNonContracting := [0]
  rhsNonContracting := [1]
  lhsBatch := []
  rhsBatch := []
  wf := dot_S1600000x128_S128x3_S1600000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S50001_S1600000x1_S1600000_n_0_0_1 : ScatterDims S50001 S1600000x1 S1600000 where
  updateWindowDims := []
  insertedWindowDims := [0]
  scatterDimsToOperandDims := [0]
  indexVectorDim := 1
  wf := scatter_S50001_S1600000x1_S1600000_n_0_0_1_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.NodeErr.lean ====
/-
  The per-node error of a linear read-out, and the two spellings of its last step.

  For a feature row h (128 entries), weights W (128 × 3), a bias b (3) and a target row t (3), the node's error is
  the mean over the three outputs of the squared residual:  (1/3) · Σ_j ((Σ_k h_k · W_kj) + b_j − t_j)².
  The prediction row is the dense layer h ↦ h·W + b; what is added here is the last step, the mean of the squared
  residuals of a predicted row against a target row, written once on rows and then read off the two ways a program
  spells it on an array of R rows: a lane sum over the three columns kept as a column and divided by a splat of
  three, and a host sum over axis 1 from a zero start divided by three broadcast from a scalar. Both divide by the
  same float word of three, which is therefore never evaluated; the zero the host sum starts from is absorbed by
  0 + x = x, which holds on the extended reals without any finiteness.
-/
import proofs.«154682_j46420006535686_1_alg».proof.Proof.LibDenseRows
import proofs.«154682_j46420006535686_1_alg».proof.Proof.LibKeepdims
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.NodeErr

open Idealize.ShloMosaic Idealize.ShloMosaic.ValueIdx Cert.LibDenseRows

/-- The f32 word of three read at the extended reals; kept as a word, since both programs divide by the same one. -/
abbrev threeW : EReal := Ideal.ofBits .f32 0x40400000#32

/-- The mean of the squared residuals of a predicted row y against a target row t, three entries each. -/
def mse3 (y t : Fin 3 → EReal) : EReal :=
  Ideal.div (∑ j : Fin 3, (y j - t j) * (y j - t j)) threeW

/-- The error of one node: the mean squared residual of the dense layer's row h·W + b against the target row t. -/
def rowErr (W : Fin 128 → Fin 3 → EReal) (b : Fin 3 → EReal) (h : Fin 128 → EReal) (t : Fin 3 → EReal) : EReal :=
  mse3 (dense h W b) t

variable {R : ℕ}

/-! ## The lane sum's spelling, on R rows -/

/-- Squared residuals summed along the three lanes, kept as a column, divided by a splat of three. -/
def kMse (Y T : FVec Ideal (Sh2 R 3) .f32) (hred : (Sh2 R 3).Reduces [1] (Sh1 R)) (hcast : (Sh1 R).ShapeCasts (Sh2 R 1)) :
    FVec Ideal (Sh2 R 1) .f32 :=
  divf (shapeCast (Sh2 R 1)
      (multiReduction .add [1] (Sh1 R) (mulf (subf Y T) (subf Y T)) 0x00000000#32 hred (.inl rfl) rfl) hcast)
    (broadcast (Sh2 R 1) (Scalar.ofBits .f32 0x40400000#32))

/-- Read at row r (the column's one entry), it is the mean squared residual of row r. -/
theorem kMse_apply (Y T : FVec Ideal (Sh2 R 3) .f32) (hred : (Sh2 R 3).Reduces [1] (Sh1 R))
    (hcast : (Sh1 R).ShapeCasts (Sh2 R 1)) (r : Fin R) (u : Fin 1) :
    kMse Y T hred hcast (ix2 r u) = mse3 (fun j => Y (ix2 r j)) (fun j => T (ix2 r j)) := by
  unfold kMse mse3
  rw [divf_apply, Cert.LibKeepdims.shapeCast_a_a1_apply, broadcast_apply]
  refine congrArg₂ Ideal.div ?_ rfl
  refine (Ideal.multiReduction_add_single _ 0x00000000#32 hred (.inl rfl) rfl (ix1 r)).trans ?_
  refine Finset.sum_congr rfl fun (k : Fin 3) _ => ?_
  have e : hred.lift (ix1 r) k = ix2 r k :=
    funext fun a => Fin.ext (by match a with | ⟨0, _⟩ => rfl | ⟨1, _⟩ => rfl)
  rw [e, mulf_apply, subf_apply]

/-! ## The host sum's spelling, on R rows -/

/-- Squared residuals summed over axis 1 from a zero start, divided by three broadcast from a scalar. -/
def hMse (Y T : FVec Ideal (Sh2 R 3) .f32) (hred : (Sh2 R 3).ReducesTo [1] (Sh1 R)) (hu : 0 < Sh0.numel)
    (hb : Sh0.BroadcastsInDim (Sh1 R) ![]) : FVec Ideal (Sh1 R) .f32 :=
  Host.divf (Host.reduceAdd (mulf (subf Y T) (subf Y T)) (constant (F := Ideal) Sh0 .f32 0x00000000#32) hred hu)
    (broadcastInDim (Sh1 R) ![] hb (constant (F := Ideal) Sh0 .f32 0x40400000#32))

/-- Read at row r, it is the mean squared residual of row r: the zero start adds nothing. -/
theorem hMse_apply (Y T : FVec Ideal (Sh2 R 3) .f32) (hred : (Sh2 R 3).ReducesTo [1] (Sh1 R))
    (hred' : (Sh2 R 3).Reduces [1] (Sh1 R)) (hu : 0 < Sh0.numel) (hb : Sh0.BroadcastsInDim (Sh1 R) ![]) (r : Fin R) :
    hMse Y T hred hu hb (ix1 r) = mse3 (fun j => Y (ix2 r j)) (fun j => T (ix2 r j)) := by
  unfold hMse mse3
  rw [ValueIdx.hostDivf_apply, ValueIdx.hostReduceAdd_apply, Ideal.hostReduceAdd_single hred hred',
    ValueIdx.broadcastInDim_scalar_apply]
  refine congrArg₂ Ideal.div ?_ rfl
  rw [constant_apply, Ideal.ofBits_zero_f32, zero_add]
  refine Finset.sum_congr rfl fun (k : Fin 3) _ => ?_
  have e : hred'.lift (ix1 r) k = ix2 r k :=
    funext fun a => Fin.ext (by match a with | ⟨0, _⟩ => rfl | ⟨1, _⟩ => rfl)
  rw [e, mulf_apply, subf_apply]

end Cert.NodeErr

end
-- ==== Proof.KernelBlock.lean ====
/-
  What the kernel body stores, read along a row.

  On a block of 4000 nodes the body casts the feature block and the weights to bf16 (no change of value on the
  extended reals), multiplies them into a zero accumulator, adds the bias as a broadcast row, subtracts the block of
  targets, squares, sums the three lanes, keeps the sums as a column and divides by three. That is the dense layer
  followed by the lane mean, so the column's entry at row r is the node error of row r of the feature block against
  row r of the target block.
-/
import proofs.«154682_j46420006535686_1_alg».proof.Proof.Gen.KernelIdeal.Skeleton
import proofs.«154682_j46420006535686_1_alg».proof.Proof.NodeErr

noncomputable section

namespace Cert.KernelIdeal.NodeErrValue

open Cert.KernelIdeal Cert.KernelIdeal.Gen Idealize.ShloMosaic Idealize.ShloMosaic.ValueIdx Cert.LibDenseRows Cert.NodeErr

/-- The stored value is the lane mean of the dense layer's block against the target block. -/
theorem pay_eq (x0 : FVec Ideal S4000x128 .f32) (x1 : FVec Ideal S128x3 .f32) (x2 : FVec Ideal S3 .f32)
    (x3 : FVec Ideal S4000x3 .f32) :
    k0_pay1 (F := Ideal) x0 x1 x2 x3
      = kMse (kDense (truncf .bf16 x0 bitsLt_bf16_f32) (truncf .bf16 x1 bitsLt_bf16_f32) x2 shapeCasts_S3_S1x3
          broadcasts_S1x3_S4000x3) x3 reduces_S4000x3_S4000 shapeCasts_S4000_S4000x1 := rfl

/-- Row r of the stored column is the node error of row r of the feature block against row r of the target block. -/
theorem pay_apply (x0 : FVec Ideal S4000x128 .f32) (x1 : FVec Ideal S128x3 .f32) (x2 : FVec Ideal S3 .f32)
    (x3 : FVec Ideal S4000x3 .f32) (r : Fin 4000) (u : Fin 1) :
    k0_pay1 (F := Ideal) x0 x1 x2 x3 (ix2 r u)
      = rowErr (fun k j => x1 (ix2 k j)) (fun j => x2 (ix1 j)) (fun k => x0 (ix2 r k)) (fun j => x3 (ix2 r j)) := by
  rw [pay_eq]
  refine (kMse_apply _ x3 reduces_S4000x3_S4000 shapeCasts_S4000_S4000x1 r u).trans ?_
  unfold rowErr
  rw [kDense_row]
  rfl

end Cert.KernelIdeal.NodeErrValue

end
-- ==== Proof.KernelArray.lean ====
/-
  The array of node errors the kernel leaves.

  The grid has 25 points; point t fetches rows 4000·t … 4000·t + 3999 of the features and of the targets, the whole
  weights and the whole bias, and writes back rows 4000·t … 4000·t + 3999 of a 100000 × 1 column. Row r of what it
  writes is the node error of row r of its two row blocks, that is of node 4000·t + r; the 25 row blocks tile the
  column, so after the run the column holds at every node n the node error of feature row n against target row n.
-/
import proofs.«154682_j46420006535686_1_alg».proof.Proof.Gen.KernelIdeal.Frame
import proofs.«154682_j46420006535686_1_alg».proof.Proof.KernelBlock
import Idealize.ShloMosaic.Lib.Pipeline.Value

set_option maxRecDepth 16384

noncomputable section

namespace Cert.KernelIdeal.NodeErrValue

open Cert.KernelIdeal Cert.KernelIdeal.Gen Idealize.ShloMosaic Idealize.ShloMosaic.TcCoe Idealize.SL.Sem
open Idealize.ShloMosaic.ValueIdx Cert.NodeErr
open Idealize.ShloMosaic.Pipeline (Dat Cfg Window)

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- The node of an index of the 100000 × 1 column. -/
def nodeOf (i : S100000x1.Idx) : Fin 100000 := ⟨(i 0).val, (i 0).isLt⟩

/-- The column of node errors of features H against targets T under the read-out (W, b). -/
def errCol (H : FVec Ideal S100000x128 .f32) (W : FVec Ideal S128x3 .f32) (b : FVec Ideal S3 .f32)
    (T : FVec Ideal S100000x3 .f32) : FVec Ideal S100000x1 .f32 :=
  fun i => rowErr (fun k j => W (ix2 k j)) (fun j => b (ix1 j)) (fun k => H (ix2 (nodeOf i) k)) (fun j => T (ix2 (nodeOf i) j))

/-- The printed index maps over the grid: the row blocks move with the point, everything else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 25 := by
  have h : cfg0.N = 25 := N_0
  have := t.isLt
  omega

/-- The node that row r of point t's row blocks is. -/
def nodeAt (t : Fin cfg0.N) (r : Fin 4000) : Fin 100000 := ⟨t.val * 4000 + r.val, by have := point_lt t; omega⟩

/-- The four input blocks of point t, at their literal types. -/
abbrev featBlk (c : Dev nD) (t : Fin cfg0.N) : FVec Ideal S4000x128 .f32 := iblk m c 0 t
abbrev wBlk (c : Dev nD) (t : Fin cfg0.N) : FVec Ideal S128x3 .f32 := iblk m c 1 t
abbrev biasBlk (c : Dev nD) (t : Fin cfg0.N) : FVec Ideal S3 .f32 := iblk m c 2 t
abbrev tgtBlk (c : Dev nD) (t : Fin cfg0.N) : FVec Ideal S4000x3 .f32 := iblk m c 3 t

/-- Row r of point t's feature block is feature row 4000·t + r. -/
theorem featBlk_apply (c : Dev nD) (t : Fin cfg0.N) (r : Fin 4000) (k : Fin 128) :
    featBlk m c t (ix2 r k) = V m c main_arg0 (ix2 (nodeAt t r) k) := by
  obtain ⟨e0, e1, -⟩ := idx_facts t
  show V m c main_arg0 (((cfg0.win 0).blk t).view.emb (ix2 r k)) = V m c main_arg0 (ix2 (nodeAt t r) k)
  refine congrArg _ (funext fun a => Fin.ext ?_)
  match a with
  | ⟨0, _⟩ => show win0_0.index t (0 : Fin 2) * 4000 + 1 * r.val = t.val * 4000 + r.val; omega
  | ⟨1, _⟩ => show win0_0.index t (1 : Fin 2) * 128 + 1 * k.val = k.val; omega

/-- The weight block is the whole weight matrix. -/
theorem wBlk_apply (c : Dev nD) (t : Fin cfg0.N) (k : Fin 128) (j : Fin 3) :
    wBlk m c t (ix2 k j) = V m c main_arg1 (ix2 k j) := by
  obtain ⟨-, -, e2, e3, -⟩ := idx_facts t
  show V m c main_arg1 (((cfg0.win 1).blk t).view.emb (ix2 k j)) = V m c main_arg1 (ix2 k j)
  refine congrArg _ (funext fun a => Fin.ext ?_)
  match a with
  | ⟨0, _⟩ => show win0_1.index t (0 : Fin 2) * 128 + 1 * k.val = k.val; omega
  | ⟨1, _⟩ => show win0_1.index t (1 : Fin 2) * 3 + 1 * j.val = j.val; omega

/-- The bias block is the whole bias. -/
theorem biasBlk_apply (c : Dev nD) (t : Fin cfg0.N) (j : Fin 3) :
    biasBlk m c t (ix1 j) = V m c main_arg2 (ix1 j) := by
  obtain ⟨-, -, -, -, e4, -⟩ := idx_facts t
  show V m c main_arg2 (((cfg0.win 2).blk t).view.emb (ix1 j)) = V m c main_arg2 (ix1 j)
  refine congrArg _ (funext fun a => Fin.ext ?_)
  match a with
  | ⟨0, _⟩ => show win0_2.index t (0 : Fin 1) * 3 + 1 * j.val = j.val; omega

/-- Row r of point t's target block is target row 4000·t + r. -/
theorem tgtBlk_apply (c : Dev nD) (t : Fin cfg0.N) (r : Fin 4000) (j : Fin 3) :
    tgtBlk m c t (ix2 r j) = V m c main_arg3 (ix2 (nodeAt t r) j) := by
  obtain ⟨-, -, -, -, -, e5, e6, -⟩ := idx_facts t
  show V m c main_arg3 (((cfg0.win 3).blk t).view.emb (ix2 r j)) = V m c main_arg3 (ix2 (nodeAt t r) j)
  refine congrArg _ (funext fun a => Fin.ext ?_)
  match a with
  | ⟨0, _⟩ => show win0_3.index t (0 : Fin 2) * 4000 + 1 * r.val = t.val * 4000 + r.val; omega
  | ⟨1, _⟩ => show win0_3.index t (1 : Fin 2) * 3 + 1 * j.val = j.val; omega

/-- Row r of point t's output block is node 4000·t + r of the column. -/
theorem outBlk_node (t : Fin cfg0.N) (r : Fin 4000) (u : Fin 1) :
    nodeOf (((cfg0.win 4).blk t).view.emb (ix2 r u)) = nodeAt t r := by
  obtain ⟨-, -, -, -, -, -, -, e7, -⟩ := idx_facts t
  refine Fin.ext ?_
  show win0_4.index t (0 : Fin 2) * 4000 + 1 * r.val = t.val * 4000 + r.val
  omega

/-- WHAT POINT t WRITES BACK is block t of the column of node errors of the arrays as the region finds them. -/
theorem flushed_eq (c : Dev nD) (t : Fin cfg0.N) :
    (dats m 0 c).flushed 4 t = ((cfg0.win 4).blk t).view.read (Elt Ideal)
      (errCol (V m c main_arg0) (V m c main_arg1) (V m c main_arg2) (V m c main_arg3)) := by
  show (cfg0.win 4).cut (grid0.coords t) ((dats m 0 c).after 4 t) = _
  rw [after0_4]
  unfold out0_4
  rw [View.canon_unit_zero off2]
  simp only [View.ld_unit_zero (S := S4000x128) off2, View.ld_unit_zero (S := S128x3) off2,
    View.ld_unit_zero (S := S3) off1, View.ld_unit_zero (S := S4000x3) off2]
  funext j
  obtain ⟨r, u, rfl⟩ : ∃ (r : Fin 4000) (u : Fin 1), j = ix2 r u := ⟨j 0, j 1, eq_ix2 j⟩
  show k0_pay1 (F := Ideal) (featBlk m c t) (wBlk m c t) (biasBlk m c t) (tgtBlk m c t) (ix2 r u)
    = errCol (V m c main_arg0) (V m c main_arg1) (V m c main_arg2) (V m c main_arg3) (((cfg0.win 4).blk t).view.emb (ix2 r u))
  refine (pay_apply (featBlk m c t) (wBlk m c t) (biasBlk m c t) (tgtBlk m c t) r u).trans ?_
  unfold errCol
  rw [outBlk_node t r u]
  have h0 : (fun k => featBlk m c t (ix2 r k)) = fun k => V m c main_arg0 (ix2 (nodeAt t r) k) :=
    funext fun k => featBlk_apply m c t r k
  have h1 : (fun k j => wBlk m c t (ix2 k j)) = fun k j => V m c main_arg1 (ix2 k j) :=
    funext fun k => funext fun j => wBlk_apply m c t k j
  have h2 : (fun j => biasBlk m c t (ix1 j)) = fun j => V m c main_arg2 (ix1 j) :=
    funext fun j => biasBlk_apply m c t j
  have h3 : (fun j => tgtBlk m c t (ix2 r j)) = fun j => V m c main_arg3 (ix2 (nodeAt t r) j) :=
    funext fun j => tgtBlk_apply m c t r j
  rw [h0, h1, h2, h3]

/-- An index of the column is in point t's block iff each coordinate is in the block's range on its axis. -/
theorem mem_blk (t : Fin cfg0.N) (i : S100000x1.Idx) :
    i ∈ ((cfg0.win 4).blk t).view.set ↔ ∀ a : Fin 2, win0_4.index t a * S4000x1.size a ≤ (i a).val
      ∧ (i a).val < win0_4.index t a * S4000x1.size a + S4000x1.size a := by
  show i ∈ ((View.whole main_v0).slice (win0_4.rect t)).set ↔ _
  rw [View.set_slice_whole, Rect.mem_set_unit]
  exact Iff.rfl

/-- The 25 row blocks tile the column: node n lies in the block of point n / 4000, which is written back. -/
theorem cover (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, -, e7, e8⟩ := idx_facts t
  refine ⟨t, flush0_4 t, ?_⟩
  rw [mem_blk]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 1 ≤ (i 1).val ∧ (i 1).val < win0_4.index t (1 : Fin 2) * 1 + 1
    omega

/-- THE COLUMN after the run: at every node, the node error of the argument arrays. -/
theorem final (c : Dev nD) :
    (dats m 0 c).arrAt 4 cfg0.N = errCol (m ((c : Thread nD τ).loc main_arg0)) (m ((c : Thread nD τ).loc main_arg1))
      (m ((c : Thread nD τ).loc main_arg2)) (m ((c : Thread nD τ).loc main_arg3)) :=
  (dats m 0 c).arrAt_eq_of_cover 4
    (errCol (V m c main_arg0) (V m c main_arg1) (V m c main_arg2) (V m c main_arg3))
    (fun t _ => flushed_eq m c t) cover

end Cert.KernelIdeal.NodeErrValue

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.LibVecGather.lean ====
/-
  A GATHER OF SCALARS READ AT AN INDEX.

  x[idx] of a flat array x of N entries at M start indices (a column [M, 1] of words) returns, at position e, the entry
  x[row], where row is the e-th start index read as a signed integer and clamped into [0, N - 1]: a gather clamps every
  start index so that its slice (here one entry) fits. It is the one-axis companion of a gather of whole rows of an
  [N, C] table at the same kind of index column, which returns at (e, h) the table's entry (row, h) for the SAME row:
  both clamp the same word into the same range. Stated with the record's lists as hypotheses, so that a program's
  record is an instance by seven rfl's. Before it, the layout fact that makes a column a gather's table: an [a, 1]
  column cast to a length-a vector reads, at p, the column's row p.
-/
import Idealize.ShloMosaic.PureOps.Ideal
import Idealize.ShloMosaic.Lib.ValueIdx
import Idealize.ShloMosaic.Lib.Pipeline.Value

namespace Cert.LibVecGather

open Idealize.ShloMosaic Idealize.ShloMosaic.ValueIdx

/-- An [a, 1] array cast to [a] reads, at p, the operand's one column at row p: the two indices have the same
    row-major position p. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_one, Shape.rowMajor_val_two]
    show p.val * 1 + 0 = p.val
    rw [Nat.mul_one, Nat.add_zero])

/-- The scalar gather's dimension numbers for a table [N], start indices [M, 1] and a result [M]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The row a start index selects in a table of N rows: the word read signed, clamped into [0, N - 1]. -/
def clampRow {w : Nat} (N : Nat) (hN : 0 < N) (i : BitVec w) : Fin N := ⟨min i.toInt.toNat (N - 1), by omega⟩

/-- The scalar gather with those dimension numbers, read at e. -/
theorem vecGather_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e) = x (ix1 (clampRow N hN (idx (ix2 e (0 : Fin 1))))) := by
  unfold Host.gather
  congr 1
  funext a
  obtain rfl : a = 0 := Subsingleton.elim _ _
  refine Fin.ext ?_
  show (vecGather N M wf).start (ix1 e) idx 0 + (vecGather N M wf).batchCoord (ix1 e) 0
    + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE SCALAR GATHER AT e: the table's entry at the row the e-th start index selects. -/
theorem gather_vec_apply {α : Type} {N M w : Nat} (hN : 0 < N)
    (d : GatherDims ⟨1, ![N]⟩ ⟨2, ![M, 1]⟩ ⟨1, ![M]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (clampRow N hN (idx (ix2 e (0 : Fin 1))))) := by
  obtain ⟨od, cd, ob, sb, sm, iv, ss, wf⟩ := d
  simp only at hod hcd hob hsb hsm hiv hss
  subst hod hcd hob hsb hsm hiv hss
  exact vecGather_apply hN wf x idx e

end Cert.LibVecGather
-- ==== Proof.RefEdge.lean ====
/-
  The reference, read at an edge, and everything it does after the per-edge error.

  For edge e the reference gathers feature row and target row at the edge's destination — the destination word made
  non-negative (a negative word has 100000 added), read signed and clamped into [0, 99999] by the gather — applies the
  dense layer to the gathered feature row, subtracts the gathered target row, squares, sums the three outputs from a
  zero start and divides by three. Both gathers read the same word and clamp it into the same range, so the edge's
  value is the node error of that one node: the reference computes per edge what depends on the destination only.
  What follows — masking by "the source is a centre", the two sums per centre, the quotient by the clamped count and
  the mean over the centres — takes the per-edge errors as one array and is written once, as a function of it.
-/
import proofs.«154682_j46420006535686_1_alg».proof.Proof.RefRead
import proofs.«154682_j46420006535686_1_alg».proof.Proof.NodeErr
import proofs.«154682_j46420006535686_1_alg».proof.Proof.LibScatterGather
import proofs.«154682_j46420006535686_1_alg».proof.Proof.LibVecGather

noncomputable section

namespace Cert.ReferenceIdeal.NodeErrValue

open Cert.ReferenceIdeal Cert.ReferenceIdeal.Gen Cert.ReferenceIdeal.Read Idealize.ShloMosaic Idealize.ShloMosaic.TcCoe
open Idealize.ShloMosaic.ValueIdx Cert.LibDenseRows Cert.NodeErr

/-! ## After the per-edge error -/

section Tail
variable {F : FTy → Type} [FloatOps F]

/-- From the per-edge errors E to the result: E masked by "the edge's source is a centre", summed per centre, divided
    by the per-centre count clamped below by one, averaged over the 50000 centres. -/
def tail (x4 : (⟨S2x1600000, .i32⟩ : BufTy).Contents (Elt F)) (x5 : (⟨S50000, .i32⟩ : BufTy).Contents (Elt F))
    (E : (⟨S1600000, .f32⟩ : BufTy).Contents (Elt F)) : (⟨S_, .f32⟩ : BufTy).Contents (Elt F) :=
  Host.divf
    (Host.reduceAdd
      (Host.divf
        (extractStridedSlice S50000 ![0]
          (Host.scatterAdd scatter_S50001_S1600000x1_S1600000_n_0_0_1 (val_main_v46 (F := F)) (val_main_v47 (F := F) x4 x5)
            (select (val_main_v21 (F := F) x4 x5) E (val_main_call0_v0 (F := F))))
          slices_S50001_S50000_0)
        (val_main_v56 (F := F) x4 x5))
      (val_main_cst_14 (F := F)) reducesTo_S50000_S_d0 h_S_)
    (val_main_cst_15 (F := F))

/-- The reference's result is that function of its per-edge errors. -/
theorem result_eq_tail (x0 : (⟨S100000x128, .f32⟩ : BufTy).Contents (Elt F)) (x1 : (⟨S128x3, .f32⟩ : BufTy).Contents (Elt F))
    (x2 : (⟨S3, .f32⟩ : BufTy).Contents (Elt F)) (x3 : (⟨S100000x3, .f32⟩ : BufTy).Contents (Elt F))
    (x4 : (⟨S2x1600000, .i32⟩ : BufTy).Contents (Elt F)) (x5 : (⟨S50000, .i32⟩ : BufTy).Contents (Elt F)) :
    val_main_v59 (F := F) x0 x1 x2 x3 x4 x5 = tail x4 x5 (val_main_v44 (F := F) x0 x1 x2 x3 x4) := rfl

end Tail

/-! ## The per-edge error -/

/-- The two row gathers take their start indices from the same words. -/
theorem dst_index_same (x4 : (⟨S2x1600000, .i32⟩ : BufTy).Contents (Elt Ideal)) :
    val_main_v38 (F := Ideal) x4 = val_main_v27 (F := Ideal) x4 := rfl

/-- The node edge e's destination word selects: made non-negative, read signed, clamped into [0, 99999]. -/
def dstNode (x4 : (⟨S2x1600000, .i32⟩ : BufTy).Contents (Elt Ideal)) (e : Fin 1600000) : Fin 100000 :=
  Cert.LibVecGather.clampRow 100000 (by decide) (val_main_v27 (F := Ideal) x4 (ix2 e (0 : Fin 1)))

/-- The per-edge error is the host's spelling of the mean squared residual of the dense layer on the gathered rows. -/
theorem edgeErr_eq (x0 : FVec Ideal S100000x128 .f32) (x1 : FVec Ideal S128x3 .f32) (x2 : FVec Ideal S3 .f32)
    (x3 : FVec Ideal S100000x3 .f32) (x4 : (⟨S2x1600000, .i32⟩ : BufTy).Contents (Elt Ideal)) :
    val_main_v44 (F := Ideal) x0 x1 x2 x3 x4
      = hMse (hDense (φ₁ := .f32) (φ₂ := .f32) (val_main_v28 (F := Ideal) x0 x4 : FVec Ideal S1600000x128 .f32) x1 x2
            bcast_S3_S1x3_1 bcast_S1x3_S1600000x3_0_1)
          (val_main_v39 (F := Ideal) x3 x4 : FVec Ideal S1600000x3 .f32) reducesTo_S1600000x3_S1600000_d1 h_S_
          bcast_S_S1600000 := rfl

/-- Read at edge e it is the node error of the destination node. -/
theorem edgeErr_apply (x0 : FVec Ideal S100000x128 .f32) (x1 : FVec Ideal S128x3 .f32) (x2 : FVec Ideal S3 .f32)
    (x3 : FVec Ideal S100000x3 .f32) (x4 : (⟨S2x1600000, .i32⟩ : BufTy).Contents (Elt Ideal)) (e : Fin 1600000) :
    val_main_v44 (F := Ideal) x0 x1 x2 x3 x4 (ix1 e)
      = rowErr (fun k j => x1 (ix2 k j)) (fun j => x2 (ix1 j)) (fun k => x0 (ix2 (dstNode x4 e) k))
          (fun j => x3 (ix2 (dstNode x4 e) j)) := by
  rw [edgeErr_eq]
  refine (hMse_apply _ _ reducesTo_S1600000x3_S1600000_d1 (by decide) h_S_ bcast_S_S1600000 e).trans ?_
  unfold rowErr
  rw [hDense_row]
  have hH : (fun k => val_main_v28 (F := Ideal) x0 x4 (ix2 e k)) = fun k => x0 (ix2 (dstNode x4 e) k) :=
    funext fun k => Cert.LibSG.gather_row_apply (by decide) gather_S100000x128_S1600000x1_S1600000x128_1_0_n_n_0_1_1128
      rfl rfl rfl rfl rfl rfl rfl x0 (val_main_v27 (F := Ideal) x4) e k
  have hT : (fun j => val_main_v39 (F := Ideal) x3 x4 (ix2 e j)) = fun j => x3 (ix2 (dstNode x4 e) j) :=
    funext fun j => by
      unfold val_main_v39
      rw [dst_index_same]
      exact Cert.LibSG.gather_row_apply (by decide) gather_S100000x3_S1600000x1_S1600000x3_1_0_n_n_0_1_13
        rfl rfl rfl rfl rfl rfl rfl x3 (val_main_v27 (F := Ideal) x4) e j
  rw [hH, hT]

end Cert.ReferenceIdeal.NodeErrValue

end
-- ==== Proof.EdgeBridge.lean ====
/-
  "Compute per node, then gather" is "gather, then compute per edge".

  The kernel's program gathers, for every edge, one entry of the column of node errors (seen as a vector) at the
  edge's destination word; the reference computes the node error again for every edge from the gathered rows. Both
  gathers read the same destination word, made non-negative in the same way, and clamp it into the same range
  [0, 99999], so both select the same node n(e), and both values are the node error of node n(e).
-/
import proofs.«154682_j46420006535686_1_alg».proof.Proof.KernelArray
import proofs.«154682_j46420006535686_1_alg».proof.Proof.RefEdge

noncomputable section

namespace Cert.EdgeBridge

open Idealize.ShloMosaic Idealize.ShloMosaic.ValueIdx Cert.NodeErr
open Cert.KernelIdeal.NodeErrValue (errCol nodeOf)
open Cert.ReferenceIdeal.NodeErrValue (dstNode edgeErr_apply)

/-- The kernel program's per-edge errors: the column A of node errors, seen as a vector, gathered at the destination
    index column. -/
def gatheredErr (A : FVec Ideal Cert.KernelIdeal.S100000x1 .f32)
    (x4 : (⟨Cert.ReferenceIdeal.S2x1600000, .i32⟩ : BufTy).Contents (Elt Ideal)) : FVec Ideal Cert.KernelIdeal.S1600000 .f32 :=
  Host.gather Cert.KernelIdeal.gather_S100000_S1600000x1_S1600000_n_0_n_n_0_1_1
    (shapeCast Cert.KernelIdeal.S100000 A Cert.KernelIdeal.Facts₀.shapeCasts_S100000x1_S100000)
    (Cert.ReferenceIdeal.Read.val_main_v27 (F := Ideal) x4)

/-- Gathering the column of node errors at the destinations gives the reference's per-edge errors. -/
theorem gatheredErr_eq (x0 : FVec Ideal Cert.KernelIdeal.S100000x128 .f32) (x1 : FVec Ideal Cert.KernelIdeal.S128x3 .f32)
    (x2 : FVec Ideal Cert.KernelIdeal.S3 .f32) (x3 : FVec Ideal Cert.KernelIdeal.S100000x3 .f32)
    (x4 : (⟨Cert.ReferenceIdeal.S2x1600000, .i32⟩ : BufTy).Contents (Elt Ideal)) :
    gatheredErr (errCol x0 x1 x2 x3) x4 = Cert.ReferenceIdeal.Read.val_main_v44 (F := Ideal) x0 x1 x2 x3 x4 := by
  funext i
  obtain ⟨e, rfl⟩ : ∃ e : Fin 1600000, i = ix1 e := ⟨i 0, eq_ix1 i⟩
  rw [edgeErr_apply]
  unfold gatheredErr
  rw [Cert.LibVecGather.gather_vec_apply (by decide) Cert.KernelIdeal.gather_S100000_S1600000x1_S1600000_n_0_n_n_0_1_1
    rfl rfl rfl rfl rfl rfl rfl, Cert.LibVecGather.shapeCast_a1_a_apply]
  rfl

end Cert.EdgeBridge

end
-- ==== Proof.KernelTail.lean ====
/-
  The kernel program's result.

  After the region the program reads the column of node errors as a vector, gathers it at the edges' destinations,
  and then does to these per-edge errors exactly what the reference does to its own: the mask by "the source is a
  centre", the two sums per centre, the quotient by the clamped count, the mean over the centres. So its result is the
  reference's closing function of the gathered column, and — the column holding the node errors, and gathering node
  errors at the destinations being the reference's per-edge errors — it is the reference's result.
-/
import proofs.«154682_j46420006535686_1_alg».proof.Proof.KernelArray
import proofs.«154682_j46420006535686_1_alg».proof.Proof.EdgeBridge
import Idealize.ShloMosaic.Lib.StableHlo.Run

set_option maxRecDepth 65536

noncomputable section

namespace Cert.KernelIdeal.NodeErrValue

open Cert.KernelIdeal Cert.KernelIdeal.Gen Idealize.ShloMosaic Idealize.ShloMosaic.TcCoe Idealize.SL.Sem
open Idealize.ShloMosaic.StableHlo

section AnyFloat
variable {F : FTy → Type} [FloatOps F]
variable (mF : (ℓ : Loc nD τ sig) → Buf (Elt F) ℓ)

/-- The program's result from the column A the region leaves and the two integer arguments: the reference's closing
    function of A, read as a vector, gathered at the destination index column. -/
def afterRegion (A : (⟨S100000x1, .f32⟩ : BufTy).Contents (Elt F)) (x4 : (⟨S2x1600000, .i32⟩ : BufTy).Contents (Elt F))
    (x5 : (⟨S50000, .i32⟩ : BufTy).Contents (Elt F)) : (⟨S_, .f32⟩ : BufTy).Contents (Elt F) :=
  Cert.ReferenceIdeal.NodeErrValue.tail (F := F) x4 x5
    (Host.gather gather_S100000_S1600000x1_S1600000_n_0_n_n_0_1_1 (shapeCast S100000 A shapeCasts_S100000x1_S100000)
      (Cert.ReferenceIdeal.Read.val_main_v27 (F := F) x4))

set_option maxHeartbeats 4000000 in
/-- What the host lines after the region leave in the result buffer. -/
theorem tail_result (c : Dev nD) :
    Pipeline.afterTail₀ cfgs (dats mF) 0 (V0 mF) [hostOps1, hostOps1_1, hostOps1_2] c main_v45
      = afterRegion ((dats mF 0 c).arrAt 4 cfg0.N) (mF ((c : Thread nD τ).loc main_arg4)) (mF ((c : Thread nD τ).loc main_arg5)) := by
  unfold Pipeline.afterTail₀
  simp only [hostOps1, hostOps1_1, hostOps1_2, List.flatten_cons, List.flatten_nil, List.append_nil, List.cons_append,
    List.nil_append]
  after_results_simp
  simp only [TRef.ofBuf, TRef.toBuf, cast_eq]
  have hA : Pipeline.withArrays (cfgs 0).spec c (V0 mF c) (fun w => (dats mF 0 c).arrAt w (cfgs 0).N) (Proc.devRef .tc main_v0)
      = (dats mF 0 c).arrAt 4 cfg0.N := Pipeline.withArrays_arr spec0 launch0.win.arr_inj c _ _ 4
  have h4 : Pipeline.withArrays (cfgs 0).spec c (V0 mF c) (fun w => (dats mF 0 c).arrAt w (cfgs 0).N) (Proc.devRef .tc main_arg4)
      = mF ((c : Thread nD τ).loc main_arg4) :=
    (Pipeline.withArrays_of_ne _ c (V0 mF c) _ main_arg4
      (by exact (by decide : ∀ w, Pipeline.arrRef spec0 w ≠ main_arg4))).trans (V_main_arg4 mF c)
  have h5 : Pipeline.withArrays (cfgs 0).spec c (V0 mF c) (fun w => (dats mF 0 c).arrAt w (cfgs 0).N) (Proc.devRef .tc main_arg5)
      = mF ((c : Thread nD τ).loc main_arg5) :=
    (Pipeline.withArrays_of_ne _ c (V0 mF c) _ main_arg5
      (by exact (by decide : ∀ w, Pipeline.arrRef spec0 w ≠ main_arg5))).trans (V_main_arg5 mF c)
  rw [hA, h4, h5]
  rfl

end AnyFloat

variable (m : (ℓ : Loc nD τ sig) → Buf (Elt Ideal) ℓ)

/-- The result as a function of the six arguments: the reference's result function of them. -/
def result (c : Dev nD) : Buf (Elt Ideal) ((c.tc : Thread nD τ).loc main_v45) :=
  Cert.ReferenceIdeal.Read.val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The host lines after the region leave the reference's result function of the arguments. -/
theorem tail_result_eq (c : Dev nD) :
    Pipeline.afterTail₀ cfgs (dats m) 0 (V0 m) [hostOps1, hostOps1_1, hostOps1_2] c main_v45 = result m c := by
  rw [tail_result m c, final m c]
  unfold afterRegion result
  rw [Cert.ReferenceIdeal.NodeErrValue.result_eq_tail]
  exact congrArg (Cert.ReferenceIdeal.NodeErrValue.tail (F := Ideal) _ _) (Cert.EdgeBridge.gatheredErr_eq _ _ _ _ _)

/-- THE RUN, read: every weakly fair execution terminates with the result buffer at the reference's result function
    of the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v45 (Pipeline.mem_restRefs_of main_v45 (by decide) (by decide))).trans (tail_result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.NodeErrValue

end
-- ==== Proof.lean ====
/-
  A node-error kernel against a per-edge reference: the certificate's five claims.

  The programs. Given node features H (100000 × 128), a linear read-out (W, b) into three outputs, targets
  (100000 × 3), a list of 1600000 edges (source, destination) and 50000 centre nodes, both programs average, over the
  centres, the mean over each centre's outgoing edges of the destination's squared read-out error
  err(d) = (1/3) · Σ_j ((Σ_k H[d,k] · W[k,j]) + b[j] − target[d,j])².
  The reference gathers the feature row and the target row of every edge's destination and computes err per EDGE; the
  kernel computes err once per NODE (25 grid points of 4000 nodes, a block product on bf16 casts with f32 accumulation,
  the bias row, the residual, its square, the three-lane sum, the division by three) and the program around it gathers
  that column at the destinations. Everything after the per-edge error — the mask "the source is a centre", the two
  scatter-added sums per centre, the quotient by the count clamped below by one, the mean over the centres — is the
  same text in both programs.

  Why they agree on the extended reals, for every input. A change of float format is the identity there, a block
  product into a zero accumulator and the host's dot_general are the same sum over the contracted coordinate, and a
  lane sum and a host sum from a zero start are the same sum (0 + x = x holds at the infinities too). A gather clamps
  its start index into the table; the column gather and the two row gathers read the same destination word, made
  non-negative the same way, and clamp it into the same range [0, 99999], so they select the same node, out-of-range
  words included. Hence gathering err at the destinations IS the reference's per-edge error, and the common closing
  function of equal arrays gives equal results. No step uses finiteness of the inputs: only that sums over Fin 3 and
  Fin 128 are sums in a commutative monoid.

  The frames of the two kernel programs are the generated ones; the reference's frame is its run with the result
  dropped; the idealization rewrote nothing, so its claim is trivial.
-/
import proofs.«154682_j46420006535686_1_alg».proof.Defs
import proofs.«154682_j46420006535686_1_alg».proof.Proof.Gen.Kernel
import proofs.«154682_j46420006535686_1_alg».proof.Proof.Gen.Kernel.Skeleton
import proofs.«154682_j46420006535686_1_alg».proof.Proof.Gen.Kernel.Launch
import proofs.«154682_j46420006535686_1_alg».proof.Proof.Gen.Kernel.Points
import proofs.«154682_j46420006535686_1_alg».proof.Proof.Gen.Kernel.Frame
import proofs.«154682_j46420006535686_1_alg».proof.Proof.Gen.KernelIdeal
import proofs.«154682_j46420006535686_1_alg».proof.Proof.Gen.KernelIdeal.Skeleton
import proofs.«154682_j46420006535686_1_alg».proof.Proof.Gen.KernelIdeal.Launch
import proofs.«154682_j46420006535686_1_alg».proof.Proof.Gen.KernelIdeal.Points
import proofs.«154682_j46420006535686_1_alg».proof.Proof.Gen.KernelIdeal.Frame
import proofs.«154682_j46420006535686_1_alg».proof.Proof.Gen.ReferenceIdeal
import proofs.«154682_j46420006535686_1_alg».proof.Proof.Gen.Pre_finite_inputs
import proofs.«154682_j46420006535686_1_alg».proof.Proof.RefRun
import proofs.«154682_j46420006535686_1_alg».proof.Proof.RefRead
import proofs.«154682_j46420006535686_1_alg».proof.Proof.KernelTail
import Idealize.ShloMosaic.Adequacy
import Idealize.ShloMosaic.Init

noncomputable section

namespace Cert.Proof

open Idealize.ShloMosaic Idealize.SL.Sem

/-- The word-level kernel program terminates, faults nowhere and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the same result: the kernel program's run
    ends at the reference's result function of ITS arguments, the reference's run at that function of its own, and the
    arguments agree. -/
theorem algebraic : Cert.algebraic_KernelIdeal_ReferenceIdeal := by
  intro m ρ m' ρ' _ hagree
  refine ⟨fun c => Cert.KernelIdeal.NodeErrValue.result m c, Cert.KernelIdeal.NodeErrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
